-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x512 .f32) (main_arg3 : FVec F S512x512 .f32) (main_arg4 : FVec F S512 .f32) (main_arg5 : FVec F S512x512 .f32) (main_arg6 : FVec F S512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 14
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S512x512, .f32⟩
  | .hbm, ⟨10, _⟩ => ⟨S512x512, .f32⟩
  | .hbm, ⟨11, _⟩ => ⟨S4096x512, .bf16⟩
  | .hbm, ⟨12, _⟩ => ⟨S4096x512, .bf16⟩
  | .hbm, ⟨13, _⟩ => ⟨S4096x512, .f32⟩
  | .local _ .vmem, ⟨0, _⟩ => ⟨S4096x512, .f32⟩
  | .local _ .vmem, ⟨1, _⟩ => ⟨S512x512, .f32⟩
  | .local _ .vmem, ⟨2, _⟩ => ⟨S512x512, .f32⟩
  | .local _ .vmem, ⟨3, _⟩ => ⟨S4096x512, .bf16⟩
  | .local _ .vmem, ⟨4, _⟩ => ⟨S4096x512, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S4096x512, .bf16⟩
  | .local _ .vmem, ⟨10, _⟩ => ⟨S4096x512, .bf16⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 2], ![false, false]⟩

def k1_off1 (i : grid1.Coords) : Fin 2 → Nat :=
  let arg1 : BitVec 32 := BitVec.ofNat 32 (i 1).val
  let c2048_i32 : BitVec 32 := 2048#32
  let v7 : BitVec 32 := Scalar.muli arg1 c2048_i32
  let v8 : Index := Scalar.indexCast v7
  let c0_4 : Index := 0#32
  ![v8.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S512_S1x512 : S512.ShapeCasts S1x512
  transposes_S512x512_S512x512_1_0 : S512x512.Transposes [1, 0] S512x512
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S4096x512_S4096x512_0_0 : (Rect.unit (s := S4096x512) ![0, 0] S4096x512.size inb_S4096x512_S4096x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x2048_S512x2048_0_0 : ∀ a, (![0, 0] : Fin 2 → Nat) a + S512x2048.size a ≤ S512x2048.size a
  h_S512x2048 : 0 < S512x2048.numel
  h_S2048x512 : 0 < S2048x512.numel
  shapeCasts_S2048x512_S2048x512 : S2048x512.ShapeCasts S2048x512
  dot_S4096x512_S512x512_S4096x512_1_0_0_1_n_n_wf : DotDims.WF S4096x512 S512x512 S4096x512 [1] [0] [0] [1] [] []
  dot_S512x2048_S2048x512_S512x512_1_0_0_1_n_n_wf : DotDims.WF S512x2048 S2048x512 S512x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  k1_off1_inb : ∀ i : grid1.Coords, ∀ a, (k1_off1 i) a + S2048x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .f32 = 32 ∨ (Rect.block (s := S4096x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .f32 = 32 ∨ (Rect.block (s := S4096x4096) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v4_0) true false (stage0_3 0) (sem0_3 0) (Memref.isWhole_whole _) (hstage0_3 0)

abbrev win0_4 : Pipeline.Window sig grid0 :=
  Pipeline.Window.whole (Memref.whole main_v4_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S4096x4096, .f32⟩
  | .hbm, ⟨8, _⟩ => ⟨S4096x512, .f32⟩
  | .hbm, ⟨9, _⟩ => ⟨S4096x512, .f32⟩
  | .hbm, ⟨10, _⟩ => ⟨S512x512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S512x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  A graph-convolution layer, written two ways over the extended reals.

  With features `X` (4096 × 512), adjacency matrices `lap`, `loop` (4096 × 4096), weights `W1`, `W2` (512 × 512, used
  transposed) and biases `b1`, `b2`, the layer's output at row `r`, column `o` is
      Σ_d (Σ_j (lap + loop)[r, j] · X[j, d]) · W1[o, d] + b1[o]  +  Σ_d (Σ_j lap[r, j] · X[j, d]²) · W2[o, d] + b2[o]      (`ref`).
  The other arrangement projects the features first,
      xb[j, o] = Σ_d X[j, d] · W1ᵀ[d, o],      xa[j, o] = xb[j, o] + Σ_d X[j, d]² · W2ᵀ[d, o],
  and then contracts the 4096 neighbours in two halves of 2048, starting from the summed bias:
      out[r, o] = ((b1 + b2)[o] + part 0 r o) + part 1 r o,   part k r o = Σ_j lap[r, 2048k + j] · xa[2048k + j, o] + Σ_j loop[r, 2048k + j] · xb[2048k + j, o].
  This file only fixes the vocabulary; that the two agree on real entries is `Algebra.lean`.
-/
import Idealize.ShloMosaic.Lib.ValueIdx
import Idealize.ShloMosaic.PureOps.Ideal

noncomputable section

open scoped BigOperators

namespace Cert.Gcn

open Idealize.ShloMosaic Idealize.ShloMosaic.ValueIdx

abbrev NN : Shape := ⟨2, ![4096, 4096]⟩
abbrev ND : Shape := ⟨2, ![4096, 512]⟩
abbrev DD : Shape := ⟨2, ![512, 512]⟩
abbrev D1 : Shape := ⟨1, ![512]⟩
abbrev R1D : Shape := ⟨2, ![1, 512]⟩

/-- A rank-2 array from its entries. -/
def mk2 {a b : ℕ} (f : Fin a → Fin b → EReal) : (⟨2, ![a, b]⟩ : Shape).Idx → EReal := fun i => f (i 0) (i 1)

theorem mk2_apply {a b : ℕ} (f : Fin a → Fin b → EReal) (p : Fin a) (q : Fin b) : mk2 f (ix2 p q) = f p q := rfl

/-- An array that agrees with `f` entry by entry is `mk2 f`. -/
theorem eq_mk2 {a b : ℕ} (A : (⟨2, ![a, b]⟩ : Shape).Idx → EReal) (f : Fin a → Fin b → EReal)
    (h : ∀ p q, A (ix2 p q) = f p q) : A = mk2 f :=
  funext fun i => by rw [eq_ix2 i]; exact h _ _

/-- Position `j` of half `k` of the 4096 neighbours. -/
def half (k : Fin 2) (j : Fin 2048) : Fin 4096 := ⟨2048 * k.val + j.val, by have := k.isLt; have := j.isLt; omega⟩

/-- Row `j` of the features against column `o` of a transposed weight matrix. -/
def lin (X : ND.Idx → EReal) (Wt : DD.Idx → EReal) (j : Fin 4096) (o : Fin 512) : EReal :=
  ∑ d : Fin 512, X (ix2 j d) * Wt (ix2 d o)

/-- The same with the features squared entry by entry. -/
def linSq (X : ND.Idx → EReal) (Wt : DD.Idx → EReal) (j : Fin 4096) (o : Fin 512) : EReal :=
  ∑ d : Fin 512, (X (ix2 j d) * X (ix2 j d)) * Wt (ix2 d o)

/-- The projected features. -/
def xb (X : ND.Idx → EReal) (W1t : DD.Idx → EReal) : ND.Idx → EReal := mk2 (lin X W1t)

/-- The projected features plus the projected squared features. -/
def xa (X : ND.Idx → EReal) (W1t W2t : DD.Idx → EReal) : ND.Idx → EReal :=
  mk2 fun j o => lin X W1t j o + linSq X W2t j o

/-- Half `k` of the neighbours' contribution to row `r`, column `o`. -/
def part (lap loop : NN.Idx → EReal) (xa xb : ND.Idx → EReal) (k : Fin 2) (r : Fin 4096) (o : Fin 512) : EReal :=
  (∑ j : Fin 2048, lap (ix2 r (half k j)) * xa (ix2 (half k j) o))
    + (∑ j : Fin 2048, loop (ix2 r (half k j)) * xb (ix2 (half k j) o))

/-- The layer, projected first and contracted in two halves from the bias row. -/
def out (lap loop : NN.Idx → EReal) (xa xb : ND.Idx → EReal) (bias : R1D.Idx → EReal) (r : Fin 4096) (o : Fin 512) : EReal :=
  (bias (ix2 (0 : Fin 1) o) + part lap loop xa xb 0 r o) + part lap loop xa xb 1 r o

/-- The layer, neighbours contracted first. -/
def ref (lap loop : NN.Idx → EReal) (X : ND.Idx → EReal) (W1 : DD.Idx → EReal) (b1 : D1.Idx → EReal)
    (W2 : DD.Idx → EReal) (b2 : D1.Idx → EReal) (r : Fin 4096) (o : Fin 512) : EReal :=
  ((∑ d : Fin 512, (∑ j : Fin 4096, (lap (ix2 r j) + loop (ix2 r j)) * X (ix2 j d)) * W1 (ix2 o d)) + b1 (ix1 o))
    + ((∑ d : Fin 512, (∑ j : Fin 4096, lap (ix2 r j) * (X (ix2 j d) * X (ix2 j d))) * W2 (ix2 o d)) + b2 (ix1 o))

end Cert.Gcn

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Region0.lean ====
/-
  The first launch, which has a single grid point and whole-array windows: after it the two result arrays hold the
  projected features `xa` (first result) and `xb` (second result) of the arrays the launch was entered with.
-/
import proofs.«142315_g52785148068368_cont_9to1_m_57_5_alg».proof.Proof.Gen.KernelIdeal.Frame
import proofs.«142315_g52785148068368_cont_9to1_m_57_5_alg».proof.Proof.Spec
import proofs.«142315_g52785148068368_cont_9to1_m_57_5_alg».proof.Proof.LibRowOps

noncomputable section

open scoped BigOperators
open Idealize.ShloMosaic Idealize.ShloMosaic.TcCoe Idealize.ShloMosaic.ValueIdx Idealize.SL.Sem
open Cert.KernelIdeal Cert.KernelIdeal.Gen Cert.Gcn

namespace Cert.Gcn.Region0

variable (V : (c : Dev nD) → (b : Ref sig .tc) → Buf (Elt Ideal) ((c : Thread nD τ).loc b))

/-! ## The payloads, entry by entry -/

/-- The product of the features with a transposed weight matrix, entry by entry: the narrowings are exact and the
    accumulator starts at zero, so entry `(j, o)` is the sum over `d` of `x0 (j, d) * w (d, o)`. -/
private theorem pay1_apply (x0 : Vec Ideal S4096x512 .f32) (w : Vec Ideal S512x512 .f32) (j : Fin 4096) (o : Fin 512) :
    k0_pay1 (F := Ideal) x0 w (ix2 j o) = ∑ d : Fin 512, x0 (ix2 j d) * w (ix2 d o) := by
  unfold k0_pay1
  refine (RowOps.matmul_plain_apply dot_S4096x512_S512x512_S4096x512_1_0_0_1_n_n rfl none _ _ j o).trans ?_
  rw [shapeCast_self]
  rfl

/-- The second result's payload is that product, narrowed exactly. -/
private theorem pay2_apply (x0 : Vec Ideal S4096x512 .f32) (w : Vec Ideal S512x512 .f32) (j : Fin 4096) (o : Fin 512) :
    k0_pay2 (F := Ideal) x0 w (ix2 j o) = lin x0 w j o := by
  unfold k0_pay2
  exact pay1_apply x0 w j o

/-- The first result's payload adds to it the product of the entrywise squares with the second weight matrix. -/
private theorem pay3_apply (x0 : Vec Ideal S4096x512 .f32) (w1 w2 : Vec Ideal S512x512 .f32) (j : Fin 4096) (o : Fin 512) :
    k0_pay3 (F := Ideal) x0 w1 w2 (ix2 j o) = lin x0 w1 j o + linSq x0 w2 j o := by
  unfold k0_pay3
  show k0_pay1 (F := Ideal) x0 w1 (ix2 j o)
    + matmul dot_S4096x512_S512x512_S4096x512_1_0_0_1_n_n none _ _ (constant S4096x512 .f32 0x00000000#32) (ix2 j o) = _
  rw [pay1_apply]
  refine congrArg (fun z => lin x0 w1 j o + z) ?_
  refine (RowOps.matmul_plain_apply dot_S4096x512_S512x512_S4096x512_1_0_0_1_n_n rfl none _ _ j o).trans ?_
  rw [shapeCast_self]
  rfl

/-- The first result's payload, at operands that agree entry by entry with arrays `X`, `W1`, `W2`, is `xa X W1 W2`. -/
private theorem pay3_eq (x0 : Vec Ideal S4096x512 .f32) (w1 w2 : Vec Ideal S512x512 .f32)
    (X : ND.Idx → EReal) (W1 W2 : DD.Idx → EReal)
    (h0 : ∀ p d, x0 (ix2 p d) = X (ix2 p d)) (h1 : ∀ d o, w1 (ix2 d o) = W1 (ix2 d o)) (h2 : ∀ d o, w2 (ix2 d o) = W2 (ix2 d o))
    (j : Fin 4096) (o : Fin 512) : k0_pay3 (F := Ideal) x0 w1 w2 (ix2 j o) = xa X W1 W2 (ix2 j o) := by
  rw [pay3_apply]
  show _ = lin X W1 j o + linSq X W2 j o
  unfold lin linSq
  simp only [h0, h1, h2]

/-- The second result's payload, likewise, is `xb X W1`. -/
private theorem pay2_eq (x0 : Vec Ideal S4096x512 .f32) (w1 : Vec Ideal S512x512 .f32)
    (X : ND.Idx → EReal) (W1 : DD.Idx → EReal)
    (h0 : ∀ p d, x0 (ix2 p d) = X (ix2 p d)) (h1 : ∀ d o, w1 (ix2 d o) = W1 (ix2 d o))
    (j : Fin 4096) (o : Fin 512) : k0_pay2 (F := Ideal) x0 w1 (ix2 j o) = xb X W1 (ix2 j o) := by
  rw [pay2_apply]
  show _ = lin X W1 j o
  unfold lin
  simp only [h0, h1]

/-! ## The blocks are the whole arrays -/

/-- Both offsets of every access are zero. -/
private theorem hz : (![0, 0] : Fin 2 → Nat) = fun _ => 0 := funext fun a => by fin_cases a <;> rfl

/-- The features' block is the whole array: its block index is zero on both axes, so entry `(p, d)` of the block
    sits at `(0 * 4096 + p, 0 * 512 + d)`. -/
private theorem blk0 (c : Dev nD) (t : Fin cfg0.N) (p : Fin 4096) (d : Fin 512) :
    iblk0 (F := Ideal) V c 0 t (ix2 p d) = V c main_arg2 (ix2 p d) := by
  show V c main_arg2 (((cfg0.win 0).blk t).view.emb (ix2 p d)) = _
  refine congrArg (V c main_arg2) (funext fun a => Fin.ext ?_)
  match a with
  | ⟨0, _⟩ => show 0 * 4096 + 1 * p.val = p.val; omega
  | ⟨1, _⟩ => show 0 * 512 + 1 * d.val = d.val; omega

/-- The first weight matrix's block is the whole matrix. -/
private theorem blk1 (c : Dev nD) (t : Fin cfg0.N) (p : Fin 512) (d : Fin 512) :
    iblk0 (F := Ideal) V c 1 t (ix2 p d) = V c main_v2 (ix2 p d) := by
  show V c main_v2 (((cfg0.win 1).blk t).view.emb (ix2 p d)) = _
  refine congrArg (V c main_v2) (funext fun a => Fin.ext ?_)
  match a with
  | ⟨0, _⟩ => show 0 * 512 + 1 * p.val = p.val; omega
  | ⟨1, _⟩ => show 0 * 512 + 1 * d.val = d.val; omega

/-- The second weight matrix's block is the whole matrix. -/
private theorem blk2 (c : Dev nD) (t : Fin cfg0.N) (p : Fin 512) (d : Fin 512) :
    iblk0 (F := Ideal) V c 2 t (ix2 p d) = V c main_v3 (ix2 p d) := by
  show V c main_v3 (((cfg0.win 2).blk t).view.emb (ix2 p d)) = _
  refine congrArg (V c main_v3) (funext fun a => Fin.ext ?_)
  match a with
  | ⟨0, _⟩ => show 0 * 512 + 1 * p.val = p.val; omega
  | ⟨1, _⟩ => show 0 * 512 + 1 * d.val = d.val; omega

/-! ## What the one point writes back -/

/-- For the first result, the whole of `xa` at the arrays the launch was entered with: the one store fills the
    buffer with its payload, each load reads a whole block, and the block's entry `(p, q)` is the array's entry `(p, q)`. -/
private theorem flushed3 (c : Dev nD) (t : Fin cfg0.N) :
    (dat0 (F := Ideal) V c).flushed 3 t
      = ((cfg0.win 3).blk t).view.read (Elt Ideal) (xa (V c main_arg2) (V c main_v2) (V c main_v3)) := by
  show (cfg0.win 3).cut (grid0.coords t) ((dat0 V c).after 3 t) = _
  rw [after0_3]
  unfold out0_3
  rw [View.canon_unit_zero hz]
  simp only [View.ld_unit_zero (S := S4096x512) hz, View.ld_unit_zero (S := S512x512) hz]
  funext y
  obtain ⟨p, q, rfl⟩ : ∃ (p : Fin 4096) (q : Fin 512), y = ix2 p q := ⟨y 0, y 1, eq_ix2 y⟩
  show k0_pay3 (iblk0 V c 0 t) (iblk0 V c 1 t) (iblk0 V c 2 t) (ix2 p q)
    = xa (V c main_arg2) (V c main_v2) (V c main_v3) (((cfg0.win 3).blk t).view.emb (ix2 p q))
  refine (pay3_eq _ _ _ _ _ _ (blk0 V c t) (blk1 V c t) (blk2 V c t) p q).trans ?_
  refine congrArg (xa (V c main_arg2) (V c main_v2) (V c main_v3)) (funext fun a => Fin.ext ?_)
  match a with
  | ⟨0, _⟩ => show p.val = 0 * 4096 + 1 * p.val; omega
  | ⟨1, _⟩ => show q.val = 0 * 512 + 1 * q.val; omega

/-- For the second result, the whole of `xb`, by the same steps. -/
private theorem flushed4 (c : Dev nD) (t : Fin cfg0.N) :
    (dat0 (F := Ideal) V c).flushed 4 t
      = ((cfg0.win 4).blk t).view.read (Elt Ideal) (xb (V c main_arg2) (V c main_v2)) := by
  show (cfg0.win 4).cut (grid0.coords t) ((dat0 V c).after 4 t) = _
  rw [after0_4]
  unfold out0_4
  rw [View.canon_unit_zero hz]
  simp only [View.ld_unit_zero (S := S4096x512) hz, View.ld_unit_zero (S := S512x512) hz]
  funext y
  obtain ⟨p, q, rfl⟩ : ∃ (p : Fin 4096) (q : Fin 512), y = ix2 p q := ⟨y 0, y 1, eq_ix2 y⟩
  show k0_pay2 (iblk0 V c 0 t) (iblk0 V c 1 t) (ix2 p q)
    = xb (V c main_arg2) (V c main_v2) (((cfg0.win 4).blk t).view.emb (ix2 p q))
  refine (pay2_eq _ _ _ _ (blk0 V c t) (blk1 V c t) p q).trans ?_
  refine congrArg (xb (V c main_arg2) (V c main_v2)) (funext fun a => Fin.ext ?_)
  match a with
  | ⟨0, _⟩ => show p.val = 0 * 4096 + 1 * p.val; omega
  | ⟨1, _⟩ => show q.val = 0 * 512 + 1 * q.val; omega

/-! ## The one block covers the array -/

/-- Every entry of the first result array lies in the point's block: on each axis the block runs from `0` over the
    axis' whole extent. -/
private theorem mem3 (t : Fin cfg0.N) (i : S4096x512.Idx) : i ∈ ((cfg0.win 3).blk t).view.set := by
  show i ∈ ((View.whole main_v4_0).slice (win0_3.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 512 ≤ (i 1).val ∧ (i 1).val < 0 * 512 + 512; have h : (i 1).val < 512 := (i 1).isLt; omega

/-- The same for the second result array. -/
private theorem mem4 (t : Fin cfg0.N) (i : S4096x512.Idx) : i ∈ ((cfg0.win 4).blk t).view.set := by
  show i ∈ ((View.whole main_v4_1).slice (win0_4.rect t)).set
  rw [View.set_slice_whole, Rect.mem_set_unit]
  intro a
  match a with
  | ⟨0, _⟩ => show 0 * 4096 ≤ (i 0).val ∧ (i 0).val < 0 * 4096 + 4096; have h : (i 0).val < 4096 := (i 0).isLt; omega
  | ⟨1, _⟩ => show 0 * 512 ≤ (i 1).val ∧ (i 1).val < 0 * 512 + 512; have h : (i 1).val < 512 := (i 1).isLt; omega

/-! ## The two result arrays -/

/-- The first result array after the launch: `X·W1ᵀ + X²·W2ᵀ`, with the weights as the launch finds them (already transposed). -/
theorem x1_eq (c : Dev nD) :
    (dat0 (F := Ideal) V c).arrAt 3 cfg0.N = xa (V c main_arg2) (V c main_v2) (V c main_v3) :=
  (dat0 (F := Ideal) V c).arrAt_eq_of_cover 3 _ (fun t _ => flushed3 V c t)
    (fun i => ⟨t0_0, flush0_3 t0_0, mem3 t0_0 i⟩)

/-- The second result array after the launch: `X·W1ᵀ`. -/
theorem x2_eq (c : Dev nD) :
    (dat0 (F := Ideal) V c).arrAt 4 cfg0.N = xb (V c main_arg2) (V c main_v2) :=
  (dat0 (F := Ideal) V c).arrAt_eq_of_cover 4 _ (fun t _ => flushed4 V c t)
    (fun i => ⟨t0_0, flush0_4 t0_0, mem4 t0_0 i⟩)

end Cert.Gcn.Region0

end
-- ==== Proof.Region1Step.lean ====
/-
  One grid point of the second launch, read at an entry of the 512 × 512 output block.
  At the first of a row block's two points the block starts from the bias row; at the second it starts from what the
  first left.  Either way the point adds the product of the 512 × 2048 block of `lap` with the matching 2048 rows of the
  first projected array, plus the same for `loop` and the second projected array.
-/
import proofs.«142315_g52785148068368_cont_9to1_m_57_5_alg».proof.Proof.Gen.KernelIdeal.Frame
import proofs.«142315_g52785148068368_cont_9to1_m_57_5_alg».proof.Proof.Spec
import proofs.«142315_g52785148068368_cont_9to1_m_57_5_alg».proof.Proof.LibRowOps

noncomputable section

open scoped BigOperators
open Idealize.ShloMosaic Idealize.ShloMosaic.TcCoe Idealize.ShloMosaic.ValueIdx Idealize.SL.Sem
open Cert.KernelIdeal Cert.KernelIdeal.Gen Cert.Gcn

namespace Cert.Gcn.Step

/-- What one point adds at `(p, o)`: its blocks of the two adjacency matrices against half `k` of the projected arrays. -/
def add (x0 x1 : Vec Ideal S512x2048 .f32) (x2 x3 : Vec Ideal S4096x512 .bf16) (k : Fin 2) (p o : Fin 512) : EReal :=
  (∑ j : Fin 2048, x0 (ix2 p j) * x2 (ix2 (half k j) o)) + (∑ j : Fin 2048, x1 (ix2 p j) * x3 (ix2 (half k j) o))

section Pieces
variable {F : FTy → Type} [FloatOps F]

/-- The zero offsets of a whole-block access, as the constant function. -/
private theorem hz : (![0, 0] : Fin 2 → Nat) = fun _ => 0 := funext fun a => by fin_cases a <;> rfl

/-- A later point's one store covers the block: what it leaves is the update of the block it found, the two
    projected arrays read through their 2048-row slices. -/
private theorem pieceB (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x512 .f32) (harg7 : arg7.IsWhole) (hc0 : ¬cond1_0 i)
    (x0 : Vec F S512x2048 .f32) (x1 : Vec F S512x2048 .f32) (x2 : Vec F S4096x512 .bf16) (x3 : Vec F S4096x512 .bf16) (x4 : Vec F S1x512 .f32) (xo5 : Vec F S512x512 .f32) :
    out1_B_5 c i arg2 harg2 arg3 harg3 arg4 harg4 arg5 harg5 arg6 harg6 arg7 harg7 hc0 x0 x1 x2 x3 x4 xo5
      = k1_pay2 x0 x1 (View.ld x2 (Rect.unit (s := S4096x512) (k1_off1 i) S2048x512.size (k1_off1_inb i)))
          (View.ld x3 (Rect.unit (s := S4096x512) (k1_off1 i) S2048x512.size (k1_off1_inb i))) xo5 := by
  unfold out1_B_5
  rw [View.read_writes_eq_canon _ _ _ (cover1_B_5 c i arg2 harg2 arg3 harg3 arg4 harg4 arg5 harg5 arg6 harg6 arg7 harg7 hc0 x0 x1 x2 x3 x4 xo5)]
  unfold kernelRun1_B
  dsimp only
  sl_unfold_words
  rw [View.canon_unit_zero hz]
  simp only [View.readAt_eq_ld, harg2.read_unread, harg3.read_unread, harg4.read_unread, harg5.read_unread,
    harg7.read_unread, View.ld_unit_zero (S := S512x2048) hz, View.ld_unit_zero (S := S512x512) hz]

/-- A first point stores the broadcast bias row over the whole block, reads it back, and stores the update of it:
    the later store covers, so the block is the update of the broadcast bias row. -/
private theorem pieceA (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x512 .f32) (harg7 : arg7.IsWhole) (hc0 : cond1_0 i)
    (x0 : Vec F S512x2048 .f32) (x1 : Vec F S512x2048 .f32) (x2 : Vec F S4096x512 .bf16) (x3 : Vec F S4096x512 .bf16) (x4 : Vec F S1x512 .f32) :
    out1_A_5 c i arg2 harg2 arg3 harg3 arg4 harg4 arg5 harg5 arg6 harg6 arg7 harg7 hc0 x0 x1 x2 x3 x4
      = k1_pay2 x0 x1 (View.ld x2 (Rect.unit (s := S4096x512) (k1_off1 i) S2048x512.size (k1_off1_inb i)))
          (View.ld x3 (Rect.unit (s := S4096x512) (k1_off1 i) S2048x512.size (k1_off1_inb i))) (k1_pay1 x4) := by
  unfold out1_A_5
  rw [View.read_writes_eq_canon _ _ _ (cover1_A_5 c i arg2 harg2 arg3 harg3 arg4 harg4 arg5 harg5 arg6 harg6 arg7 harg7 hc0 x0 x1 x2 x3 x4)]
  unfold kernelRun1_A
  dsimp only
  sl_unfold_words
  rw [View.canon_cons_unit_zero (S := S512x512) hz, View.readCov_unit_zero (S := S512x512) _ hz]
  simp only [View.readAt_eq_ld, harg2.read_unread, harg3.read_unread, harg4.read_unread, harg5.read_unread,
    harg6.read_unread, View.ld_unit_zero (S := S512x2048) hz, View.ld_unit_zero (S := S1x512) hz]

end Pieces

/-- The bias row broadcast down the block: entry `(p, o)` is the row's entry `o` (the two shape casts are between
    equal shapes). -/
private theorem pay1_apply (x4 : Vec Ideal S1x512 .f32) (p o : Fin 512) :
    k1_pay1 (F := Ideal) x4 (ix2 p o) = x4 (ix2 (0 : Fin 1) o) := by
  unfold k1_pay1
  refine (broadcastTo_1b_ab_apply _ _ p o).trans ?_
  refine (congrFun (shapeCast_self _ _) _).trans ?_
  exact congrFun (shapeCast_self _ _) _

/-- The update at `(p, o)`: the entry found, plus the sum over the 2048 positions `j` of the first block's row `p`
    against column `o` of the first slice, plus the same for the second pair.  Narrowing is the identity on the
    extended reals, the shape casts are between equal shapes, and a product into the zero splat is the plain sum. -/
private theorem pay2_apply (v3 v5 : Vec Ideal S512x2048 .f32) (v9 v13 : Vec Ideal S2048x512 .bf16) (v15 : Vec Ideal S512x512 .f32)
    (p o : Fin 512) :
    k1_pay2 (F := Ideal) v3 v5 v9 v13 v15 (ix2 p o)
      = v15 (ix2 p o) + ((∑ j : Fin 2048, v3 (ix2 p j) * v9 (ix2 j o)) + (∑ j : Fin 2048, v5 (ix2 p j) * v13 (ix2 j o))) := by
  unfold k1_pay2
  refine congrArg₂ (· + ·) (congrFun (shapeCast_self _ _) _) (congrArg₂ (· + ·) ?_ ?_)
  · refine (RowOps.matmul_plain_apply (M := 512) (K := 2048) (N := 512) _ rfl none _ _ p o).trans ?_
    exact Finset.sum_congr rfl fun j _ => congrArg (v3 (ix2 p j) * ·) (congrFun (shapeCast_self _ _) _)
  · refine (RowOps.matmul_plain_apply (M := 512) (K := 2048) (N := 512) _ rfl none _ _ p o).trans ?_
    exact Finset.sum_congr rfl fun j _ => congrArg (v5 (ix2 p j) * ·) (congrFun (shapeCast_self _ _) _)

/-- The 2048-row slice a point reads starts at row `2048 · k` when the point's second coordinate is `k`: its entry
    `(j, o)` is entry `(2048 · k + j, o)` of the array. -/
private theorem ld_half (i : grid1.Coords) (k : Fin 2) (hk : (i 1).val = k.val) (x : Vec Ideal S4096x512 .bf16)
    (j : Fin 2048) (o : Fin 512) :
    View.ld x (Rect.unit (s := S4096x512) (k1_off1 i) S2048x512.size (k1_off1_inb i)) (ix2 j o) = x (ix2 (half k j) o) := by
  show x ((Rect.unit (s := S4096x512) (k1_off1 i) S2048x512.size (k1_off1_inb i)).emb (ix2 j o)) = _
  refine congrArg x (funext fun a => Fin.ext ?_)
  have e0 : k1_off1 i 0 = 2048 * (i 1).val := congrFun (k1_off1_eq i) 0
  have e1 : k1_off1 i 1 = 0 := congrFun (k1_off1_eq i) 1
  match a with
  | ⟨0, _⟩ => show k1_off1 i 0 + 1 * j.val = 2048 * k.val + j.val; rw [e0, hk]; omega
  | ⟨1, _⟩ => show k1_off1 i 1 + 1 * o.val = o.val; rw [e1]; omega

/-- The update over the two slices is the point's contribution `add` on top of the block it starts from. -/
private theorem pay2_slices (i : grid1.Coords) (k : Fin 2) (hk : (i 1).val = k.val)
    (x0 x1 : Vec Ideal S512x2048 .f32) (x2 x3 : Vec Ideal S4096x512 .bf16) (v15 : Vec Ideal S512x512 .f32) (p o : Fin 512) :
    k1_pay2 (F := Ideal) x0 x1 (View.ld x2 (Rect.unit (s := S4096x512) (k1_off1 i) S2048x512.size (k1_off1_inb i)))
        (View.ld x3 (Rect.unit (s := S4096x512) (k1_off1 i) S2048x512.size (k1_off1_inb i))) v15 (ix2 p o)
      = v15 (ix2 p o) + add x0 x1 x2 x3 k p o := by
  refine (pay2_apply x0 x1 _ _ v15 p o).trans ?_
  unfold add
  refine congrArg (v15 (ix2 p o) + ·) (congrArg₂ (· + ·) ?_ ?_)
  · exact Finset.sum_congr rfl fun j _ => congrArg (x0 (ix2 p j) * ·) (ld_half i k hk x2 j o)
  · exact Finset.sum_congr rfl fun j _ => congrArg (x1 (ix2 p j) * ·) (ld_half i k hk x3 j o)

/-- The block a first point leaves: the bias row under the point's contribution. -/
theorem outA_apply (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x512 .f32) (harg7 : arg7.IsWhole) (hc0 : cond1_0 i)
    (x0 : Vec Ideal S512x2048 .f32) (x1 : Vec Ideal S512x2048 .f32) (x2 : Vec Ideal S4096x512 .bf16) (x3 : Vec Ideal S4096x512 .bf16) (x4 : Vec Ideal S1x512 .f32)
    (k : Fin 2) (hk : (i 1).val = k.val) (p o : Fin 512) :
    out1_A_5 (F := Ideal) c i arg2 harg2 arg3 harg3 arg4 harg4 arg5 harg5 arg6 harg6 arg7 harg7 hc0 x0 x1 x2 x3 x4 (ix2 p o)
      = x4 (ix2 (0 : Fin 1) o) + add x0 x1 x2 x3 k p o := by
  refine (congrFun (pieceA (F := Ideal) c i arg2 harg2 arg3 harg3 arg4 harg4 arg5 harg5 arg6 harg6 arg7 harg7 hc0 x0 x1 x2 x3 x4) (ix2 p o)).trans ?_
  refine (pay2_slices i k hk x0 x1 x2 x3 (k1_pay1 x4) p o).trans ?_
  exact congrArg (· + add x0 x1 x2 x3 k p o) (pay1_apply x4 p o)

/-- The block a later point leaves: what it found under the point's contribution. -/
theorem outB_apply (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x512 .f32) (harg7 : arg7.IsWhole) (hc0 : ¬cond1_0 i)
    (x0 : Vec Ideal S512x2048 .f32) (x1 : Vec Ideal S512x2048 .f32) (x2 : Vec Ideal S4096x512 .bf16) (x3 : Vec Ideal S4096x512 .bf16) (x4 : Vec Ideal S1x512 .f32) (xo5 : Vec Ideal S512x512 .f32)
    (k : Fin 2) (hk : (i 1).val = k.val) (p o : Fin 512) :
    out1_B_5 (F := Ideal) c i arg2 harg2 arg3 harg3 arg4 harg4 arg5 harg5 arg6 harg6 arg7 harg7 hc0 x0 x1 x2 x3 x4 xo5 (ix2 p o)
      = xo5 (ix2 p o) + add x0 x1 x2 x3 k p o := by
  refine (congrFun (pieceB (F := Ideal) c i arg2 harg2 arg3 harg3 arg4 harg4 arg5 harg5 arg6 harg6 arg7 harg7 hc0 x0 x1 x2 x3 x4 xo5) (ix2 p o)).trans ?_
  exact pay2_slices i k hk x0 x1 x2 x3 xo5 p o

end Cert.Gcn.Step

end
-- ==== Proof.Region1Array.lean ====
/-
  The second launch as a whole: 8 row blocks of 512 rows, each visited at two consecutive grid points (one per half of
  the 4096 neighbours) and written back after the second.  Row `r` of the output therefore ends at the bias row plus
  both halves' contributions: `out` of the arrays the launch was entered with.
-/
import proofs.«142315_g52785148068368_cont_9to1_m_57_5_alg».proof.Proof.Gen.KernelIdeal.Frame
import proofs.«142315_g52785148068368_cont_9to1_m_57_5_alg».proof.Proof.Spec
import proofs.«142315_g52785148068368_cont_9to1_m_57_5_alg».proof.Proof.LibRowOps
import proofs.«142315_g52785148068368_cont_9to1_m_57_5_alg».proof.Proof.Region1Step

noncomputable section

open scoped BigOperators
open Idealize.ShloMosaic Idealize.ShloMosaic.TcCoe Idealize.ShloMosaic.ValueIdx Idealize.SL.Sem
open Cert.KernelIdeal Cert.KernelIdeal.Gen Cert.Gcn

namespace Cert.Gcn.Region1

variable (V : (c : Dev nD) → (b : Ref sig .tc) → Buf (Elt Ideal) ((c : Thread nD τ).loc b))

/-- The grid's coordinates and the windows' block indices at point `t`: row block `t / 2`, half `t % 2`. -/
private theorem grid_facts : ∀ t : Fin cfg1.N,
    (grid1.coords t 0).val = t.val / 2 ∧ (grid1.coords t 1).val = t.val % 2
    ∧ win1_0.index t (0 : Fin 2) = t.val / 2 ∧ win1_0.index t (1 : Fin 2) = t.val % 2
    ∧ win1_1.index t (0 : Fin 2) = t.val / 2 ∧ win1_1.index t (1 : Fin 2) = t.val % 2
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 2 ∧ win1_5.index t (1 : Fin 2) = 0 :=
  (by decide +kernel : ∀ t : Fin grid1.N, _)

/-- Row `p` of row block `m`: row `512 m + p` of the 4096. -/
private def row (m : Fin 8) (p : Fin 512) : Fin 4096 := ⟨512 * m.val + p.val, by have := m.isLt; have := p.isLt; omega⟩

/-- The block of the first adjacency matrix at a point of row block `m` and half `k`: rows `512 m + p`, columns `2048 k + j`. -/
private theorem lap_blk (c : Dev nD) (t : Fin cfg1.N) (m : Fin 8) (k : Fin 2) (hm : t.val / 2 = m.val) (hk : t.val % 2 = k.val)
    (p : Fin 512) (j : Fin 2048) :
    (iblk1 (F := Ideal) V c 0 t : Vec Ideal S512x2048 .f32) (ix2 p j) = V c main_arg0 (ix2 (row m p) (half k j)) := by
  obtain ⟨-, -, e0, e1, -⟩ := grid_facts t
  show V c main_arg0 (((cfg1.win 0).blk t).view.emb (ix2 p j)) = _
  congr 1
  funext a; apply Fin.ext
  match a with
  | ⟨0, _⟩ => show win1_0.index t (0 : Fin 2) * 512 + 1 * p.val = 512 * m.val + p.val; omega
  | ⟨1, _⟩ => show win1_0.index t (1 : Fin 2) * 2048 + 1 * j.val = 2048 * k.val + j.val; omega

/-- The same block of the second adjacency matrix. -/
private theorem loop_blk (c : Dev nD) (t : Fin cfg1.N) (m : Fin 8) (k : Fin 2) (hm : t.val / 2 = m.val) (hk : t.val % 2 = k.val)
    (p : Fin 512) (j : Fin 2048) :
    (iblk1 (F := Ideal) V c 1 t : Vec Ideal S512x2048 .f32) (ix2 p j) = V c main_arg1 (ix2 (row m p) (half k j)) := by
  obtain ⟨-, -, -, -, e0, e1, -⟩ := grid_facts t
  show V c main_arg1 (((cfg1.win 1).blk t).view.emb (ix2 p j)) = _
  congr 1
  funext a; apply Fin.ext
  match a with
  | ⟨0, _⟩ => show win1_1.index t (0 : Fin 2) * 512 + 1 * p.val = 512 * m.val + p.val; omega
  | ⟨1, _⟩ => show win1_1.index t (1 : Fin 2) * 2048 + 1 * j.val = 2048 * k.val + j.val; omega

/-- The first projected array is read whole at every point. -/
private theorem xa_blk (c : Dev nD) (t : Fin cfg1.N) (q : Fin 4096) (o : Fin 512) :
    (iblk1 (F := Ideal) V c 2 t : Vec Ideal S4096x512 .bf16) (ix2 q o) = V c main_v4_0 (ix2 q o) := by
  obtain ⟨-, -, -, -, -, -, e0, e1, -⟩ := grid_facts t
  show V c main_v4_0 (((cfg1.win 2).blk t).view.emb (ix2 q o)) = _
  congr 1
  funext a; apply Fin.ext
  match a with
  | ⟨0, _⟩ => show win1_2.index t (0 : Fin 2) * 4096 + 1 * q.val = q.val; omega
  | ⟨1, _⟩ => show win1_2.index t (1 : Fin 2) * 512 + 1 * o.val = o.val; omega

/-- The second projected array is read whole at every point. -/
private theorem xb_blk (c : Dev nD) (t : Fin cfg1.N) (q : Fin 4096) (o : Fin 512) :
    (iblk1 (F := Ideal) V c 3 t : Vec Ideal S4096x512 .bf16) (ix2 q o) = V c main_v4_1 (ix2 q o) := by
  obtain ⟨-, -, -, -, -, -, -, -, e0, e1, -⟩ := grid_facts t
  show V c main_v4_1 (((cfg1.win 3).blk t).view.emb (ix2 q o)) = _
  congr 1
  funext a; apply Fin.ext
  match a with
  | ⟨0, _⟩ => show win1_3.index t (0 : Fin 2) * 4096 + 1 * q.val = q.val; omega
  | ⟨1, _⟩ => show win1_3.index t (1 : Fin 2) * 512 + 1 * o.val = o.val; omega

/-- The bias row is read whole at every point. -/
private theorem bias_blk (c : Dev nD) (t : Fin cfg1.N) (z : Fin 1) (o : Fin 512) :
    (iblk1 (F := Ideal) V c 4 t : Vec Ideal S1x512 .f32) (ix2 z o) = V c main_v1 (ix2 z o) := by
  obtain ⟨-, -, -, -, -, -, -, -, -, -, e0, e1, -⟩ := grid_facts t
  show V c main_v1 (((cfg1.win 4).blk t).view.emb (ix2 z o)) = _
  congr 1
  funext a; apply Fin.ext
  match a with
  | ⟨0, _⟩ => show win1_4.index t (0 : Fin 2) * 1 + 1 * z.val = z.val; omega
  | ⟨1, _⟩ => show win1_4.index t (1 : Fin 2) * 512 + 1 * o.val = o.val; omega

/-- What the output block holds after the second point of row block `m`: the first point left the bias row plus
    half 0 of the neighbours' contribution, the second added half 1. -/
private theorem odd_point (c : Dev nD) (t : Fin cfg1.N) (ht : t.val % 2 = 1) (m : Fin 8) (hm : t.val / 2 = m.val) (p o : Fin 512) :
    outsAt1 (F := Ideal) V c t.val t.isLt (ix2 p o)
      = out (V c main_arg0) (V c main_arg1) (V c main_v4_0) (V c main_v4_1) (V c main_v1) (row m p) o := by
  have hN : t.val < 16 := lt_of_lt_of_eq t.isLt (show cfg1.N = 16 from N_1)
  have hB : ¬t.val % 2 = 0 := by omega
  have hlt : t.val - 1 < cfg1.N := Nat.lt_of_le_of_lt (Nat.sub_le _ _) t.isLt
  have hA : (⟨t.val - 1, hlt⟩ : Fin cfg1.N).val % 2 = 0 := by show (t.val - 1) % 2 = 0; omega
  have hm' : (⟨t.val - 1, hlt⟩ : Fin cfg1.N).val / 2 = m.val := by show (t.val - 1) / 2 = m.val; omega
  have hk1 : (grid1.coords t 1).val = (1 : Fin 2).val := by rw [(grid_facts t).2.1, ht]; rfl
  have hk0 : (grid1.coords ⟨t.val - 1, hlt⟩ 1).val = (0 : Fin 2).val := by rw [(grid_facts ⟨t.val - 1, hlt⟩).2.1, hA]; rfl
  rw [outsAt1_B V c t hB]
  refine (Step.outB_apply c (grid1.coords t) (ms1_0 t) (hs1_0 t) (ms1_1 t) (hs1_1 t) (ms1_2 t) (hs1_2 t) (ms1_3 t) (hs1_3 t) (ms1_4 t) (hs1_4 t) (ms1_5 t) (hs1_5 t) (fun h => hB ((hcond1_0 t).mp h))
    (iblk1 V c 0 t) (iblk1 V c 1 t) (iblk1 V c 2 t) (iblk1 V c 3 t) (iblk1 V c 4 t) (outsAt1 V c (t.val - 1) hlt) 1 hk1 p o).trans ?_
  rw [show outsAt1 (F := Ideal) V c (t.val - 1) hlt = _ from outsAt1_A V c ⟨t.val - 1, hlt⟩ hA]
  rw [Step.outA_apply c (grid1.coords ⟨t.val - 1, hlt⟩) (ms1_0 ⟨t.val - 1, hlt⟩) (hs1_0 ⟨t.val - 1, hlt⟩) (ms1_1 ⟨t.val - 1, hlt⟩) (hs1_1 ⟨t.val - 1, hlt⟩) (ms1_2 ⟨t.val - 1, hlt⟩) (hs1_2 ⟨t.val - 1, hlt⟩) (ms1_3 ⟨t.val - 1, hlt⟩) (hs1_3 ⟨t.val - 1, hlt⟩) (ms1_4 ⟨t.val - 1, hlt⟩) (hs1_4 ⟨t.val - 1, hlt⟩) (ms1_5 ⟨t.val - 1, hlt⟩) (hs1_5 ⟨t.val - 1, hlt⟩) ((hcond1_0 ⟨t.val - 1, hlt⟩).mpr hA)
    (iblk1 V c 0 ⟨t.val - 1, hlt⟩) (iblk1 V c 1 ⟨t.val - 1, hlt⟩) (iblk1 V c 2 ⟨t.val - 1, hlt⟩) (iblk1 V c 3 ⟨t.val - 1, hlt⟩) (iblk1 V c 4 ⟨t.val - 1, hlt⟩) 0 hk0 p o]
  unfold out part Step.add
  simp only [lap_blk V c t m 1 hm (by rw [ht]; rfl), loop_blk V c t m 1 hm (by rw [ht]; rfl), xa_blk V c t, xb_blk V c t,
    lap_blk V c ⟨t.val - 1, hlt⟩ m 0 hm' (by rw [hA]; rfl), loop_blk V c ⟨t.val - 1, hlt⟩ m 0 hm' (by rw [hA]; rfl),
    xa_blk V c ⟨t.val - 1, hlt⟩, xb_blk V c ⟨t.val - 1, hlt⟩, bias_blk V c ⟨t.val - 1, hlt⟩]

/-- The output array the launch leaves: `out` of the arrays it was entered with. -/
private def G (c : Dev nD) : Buf (Elt Ideal) ((cfg1.win 5).arr.view.loc (c.tc : Thread nD τ)) :=
  mk2 (out (V c main_arg0) (V c main_arg1) (V c main_v4_0) (V c main_v4_1) (V c main_v1))

/-- What a second point writes back is its block of that array: rows `512 (t / 2) + p`, all 512 columns. -/
private theorem flushed_eq (c : Dev nD) (t : Fin cfg1.N) (hf : (cfg1.win 5).flush t = true) :
    (dat1 (F := Ideal) V c).flushed 5 t = ((cfg1.win 5).blk t).view.read (Elt Ideal) (G V c) := by
  have ht : t.val % 2 = 1 := (flush1_5 t).mp hf
  have hN : t.val < 16 := lt_of_lt_of_eq t.isLt (show cfg1.N = 16 from N_1)
  obtain ⟨-, -, -, -, -, -, -, -, -, -, -, -, e0, e1⟩ := grid_facts t
  show (cfg1.win 5).cut (grid1.coords t) ((dat1 V c).after 5 t) = _
  rw [after1_5]
  have key : ∀ p o : Fin 512, (cfg1.win 5).cut (grid1.coords t) (outsAt1 (F := Ideal) V c t.val t.isLt) (ix2 p o)
      = ((cfg1.win 5).blk t).view.read (Elt Ideal) (G V c) (ix2 p o) := fun p o => by
    have hx : (cfg1.win 5).xinj (grid1.coords t) (ix2 p o) = ix2 p o :=
      funext fun a => by match a with | ⟨0, _⟩ => rfl | ⟨1, _⟩ => rfl
    have he : ((cfg1.win 5).blk t).view.emb (ix2 p o) = ix2 (row ⟨t.val / 2, by omega⟩ p) o := by
      funext a; apply Fin.ext
      match a with
      | ⟨0, _⟩ => show win1_5.index t (0 : Fin 2) * 512 + 1 * p.val = 512 * (t.val / 2) + p.val; omega
      | ⟨1, _⟩ => show win1_5.index t (1 : Fin 2) * 512 + 1 * o.val = o.val; omega
    show outsAt1 (F := Ideal) V c t.val t.isLt ((cfg1.win 5).xinj (grid1.coords t) (ix2 p o)) = G V c (((cfg1.win 5).blk t).view.emb (ix2 p o))
    rw [hx, he]
    exact odd_point V c t ht ⟨t.val / 2, by omega⟩ rfl p o
  funext y
  rw [eq_ix2 y]
  exact key _ _

/-- An entry of the array lies in point `t`'s output block iff each coordinate is in the block's range on its axis. -/
private theorem mem_blk (t : Fin cfg1.N) (i : S4096x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v5).slice (win1_5.rect t)).set ↔ _
  rw [View.set_slice_whole, Rect.mem_set_unit]
  exact Iff.rfl

/-- Row `r` lies in the block written back at the second point of row block `r / 512`. -/
private theorem cover (i : S4096x512.Idx) : ∃ t : Fin cfg1.N, (cfg1.win 5).flush t = true ∧ i ∈ ((cfg1.win 5).blk t).view.set := by
  have hi0 : (i 0).val < 4096 := (i 0).isLt
  have hi1 : (i 1).val < 512 := (i 1).isLt
  have hN : grid1.N = 16 := N_1
  have hlt : 2 * ((i 0).val / 512) + 1 < cfg1.N := by show _ < grid1.N; rw [hN]; omega
  refine ⟨⟨2 * ((i 0).val / 512) + 1, hlt⟩, (flush1_5 _).mpr (by show (2 * ((i 0).val / 512) + 1) % 2 = 1; omega), ?_⟩
  obtain ⟨-, -, -, -, -, -, -, -, -, -, -, -, e0, e1⟩ := grid_facts ⟨2 * ((i 0).val / 512) + 1, hlt⟩
  have e0' : win1_5.index ⟨2 * ((i 0).val / 512) + 1, hlt⟩ (0 : Fin 2) = (2 * ((i 0).val / 512) + 1) / 2 := e0
  rw [mem_blk]
  intro a
  match a with
  | ⟨0, _⟩ => show win1_5.index _ (0 : Fin 2) * 512 ≤ (i 0).val ∧ (i 0).val < win1_5.index _ (0 : Fin 2) * 512 + 512; omega
  | ⟨1, _⟩ => show win1_5.index _ (1 : Fin 2) * 512 ≤ (i 1).val ∧ (i 1).val < win1_5.index _ (1 : Fin 2) * 512 + 512; omega

/-- The output array after the launch. -/
private theorem final (c : Dev nD) : (dat1 (F := Ideal) V c).arrAt 5 cfg1.N = G V c :=
  (dat1 (F := Ideal) V c).arrAt_eq_of_cover 5 (G V c) (fun t hf => flushed_eq V c t hf) cover

/-- The output array after the launch, entry by entry. -/
theorem out_apply (c : Dev nD) (r : Fin 4096) (o : Fin 512) :
    (dat1 (F := Ideal) V c).arrAt 5 cfg1.N (ix2 r o)
      = out (V c main_arg0) (V c main_arg1) (V c main_v4_0) (V c main_v4_1) (V c main_v1) r o := by
  rw [final V c]
  rfl

end Cert.Gcn.Region1

end
-- ==== Proof.Chain.lean ====
/-
  From the run's last boundary back to the launch memory.
  The program is a stretch of four host operations (the bias sum cast to one row, and the two weight matrices
  transposed), then the projecting launch, then the contracting launch.  Each launch changes only its result arrays and each
  host operation only its own result, so the output array after the run is `out` of the launched adjacency matrices, the
  first launch's two results (`xa`, `xb` of the launched features and the transposed weights) and the bias row.
-/
import proofs.«142315_g52785148068368_cont_9to1_m_57_5_alg».proof.Proof.Gen.KernelIdeal.Frame
import proofs.«142315_g52785148068368_cont_9to1_m_57_5_alg».proof.Proof.Spec
import proofs.«142315_g52785148068368_cont_9to1_m_57_5_alg».proof.Proof.LibRowOps
import proofs.«142315_g52785148068368_cont_9to1_m_57_5_alg».proof.Proof.Region0
import proofs.«142315_g52785148068368_cont_9to1_m_57_5_alg».proof.Proof.Region1Array

noncomputable section

open scoped BigOperators
open Idealize.ShloMosaic Idealize.ShloMosaic.TcCoe Idealize.ShloMosaic.ValueIdx Idealize.SL.Sem
open Cert.KernelIdeal Cert.KernelIdeal.Gen Cert.Gcn

namespace Cert.Gcn.Chain

variable (m : (ℓ : Loc nD τ sig) → Buf (Elt Ideal) ℓ) (ρ : Dev nD → PrngReg)

/-! ## The host stretch before the first launch -/

/-- No host operation writes the first adjacency matrix. -/
theorem W1_arg0 (c : Dev nD) : W1 (F := Ideal) m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))).trans rfl

/-- Nor the second. -/
theorem W1_arg1 (c : Dev nD) : W1 (F := Ideal) m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))).trans rfl

/-- Nor the features. -/
theorem W1_arg2 (c : Dev nD) : W1 (F := Ideal) m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (by decide)))).trans rfl

/-- The first transposed weight matrix. -/
theorem W1_v2 (c : Dev nD) : W1 (F := Ideal) m ρ c (Proc.devRef .tc main_v2)
    = transpose S512x512 [1, 0] (m ((c : Thread nD τ).loc main_arg3)) transposes_S512x512_S512x512_1_0 := by
  show StableHlo.after hostOps0 (W0 m ρ c) (Proc.devRef .tc main_v2) = _
  after_results

/-- The second transposed weight matrix. -/
theorem W1_v3 (c : Dev nD) : W1 (F := Ideal) m ρ c (Proc.devRef .tc main_v3)
    = transpose S512x512 [1, 0] (m ((c : Thread nD τ).loc main_arg5)) transposes_S512x512_S512x512_1_0 := by
  show StableHlo.after hostOps0 (W0 m ρ c) (Proc.devRef .tc main_v3) = _
  after_results

/-- The bias row: the two biases summed, cast to one row. -/
theorem W1_v1 (c : Dev nD) (b1 b2 : FVec Ideal S512 .f32) (h1 : b1 = m ((c : Thread nD τ).loc main_arg4))
    (h2 : b2 = m ((c : Thread nD τ).loc main_arg6)) :
    W1 (F := Ideal) m ρ c (Proc.devRef .tc main_v1) = shapeCast S1x512 (addf b1 b2) shapeCasts_S512_S1x512 := by
  subst h1 h2
  show StableHlo.after hostOps0 (W0 m ρ c) (Proc.devRef .tc main_v1) = _
  after_results
  rfl

/-- Entry `(d, o)` of a transposed weight matrix is entry `(o, d)` of the weight matrix. -/
theorem W1_v2_apply (c : Dev nD) (d o : Fin 512) :
    (W1 (F := Ideal) m ρ c (Proc.devRef .tc main_v2) : DD.Idx → EReal) (ix2 d o)
      = (m ((c : Thread nD τ).loc main_arg3) : DD.Idx → EReal) (ix2 o d) := by
  rw [W1_v2]; exact transpose_ix2_apply _ _ d o

theorem W1_v3_apply (c : Dev nD) (d o : Fin 512) :
    (W1 (F := Ideal) m ρ c (Proc.devRef .tc main_v3) : DD.Idx → EReal) (ix2 d o)
      = (m ((c : Thread nD τ).loc main_arg5) : DD.Idx → EReal) (ix2 o d) := by
  rw [W1_v3]; exact transpose_ix2_apply _ _ d o

/-- Entry `o` of a one-axis array. -/
def at1 (b : D1.Idx → EReal) (o : Fin 512) : EReal := b (ix1 o)

/-- Entry `o` of the bias row is the sum of the two biases' entries. -/
theorem W1_v1_apply (c : Dev nD) (o : Fin 512) :
    (W1 (F := Ideal) m ρ c (Proc.devRef .tc main_v1) : R1D.Idx → EReal) (ix2 (0 : Fin 1) o)
      = at1 (m ((c : Thread nD τ).loc main_arg4)) o + at1 (m ((c : Thread nD τ).loc main_arg6)) o := by
  rw [W1_v1 m ρ c _ _ rfl rfl]; exact shapeCast_a_1a_apply _ _ 0 o

/-! ## Across the first launch -/

/-- The first launch leaves the adjacency matrices and the bias row as it found them. -/
theorem V2_arg0 (c : Dev nD) : V2 (F := Ideal) m ρ c main_arg0 = m ((c : Thread nD τ).loc main_arg0) :=
  (W2_of_ne m ρ c main_arg0 (by decide)).trans (W1_arg0 m ρ c)

theorem V2_arg1 (c : Dev nD) : V2 (F := Ideal) m ρ c main_arg1 = m ((c : Thread nD τ).loc main_arg1) :=
  (W2_of_ne m ρ c main_arg1 (by decide)).trans (W1_arg1 m ρ c)

theorem V2_v1 (c : Dev nD) : V2 (F := Ideal) m ρ c main_v1 = W1 (F := Ideal) m ρ c (Proc.devRef .tc main_v1) :=
  W2_of_ne m ρ c main_v1 (by decide)

/-- Its first result: the projected features plus the projected squared features. -/
theorem V2_x1 (c : Dev nD) : V2 (F := Ideal) m ρ c main_v4_0
    = xa (m ((c : Thread nD τ).loc main_arg2)) (W1 (F := Ideal) m ρ c (Proc.devRef .tc main_v2)) (W1 (F := Ideal) m ρ c (Proc.devRef .tc main_v3)) := by
  refine ((W2_arr m ρ c 3).trans (Region0.x1_eq (V1 m ρ) c)).trans ?_
  show xa (W1 (F := Ideal) m ρ c (Proc.devRef .tc main_arg2)) _ _ = _
  rw [W1_arg2]

/-- Its second result: the projected features. -/
theorem V2_x2 (c : Dev nD) : V2 (F := Ideal) m ρ c main_v4_1
    = xb (m ((c : Thread nD τ).loc main_arg2)) (W1 (F := Ideal) m ρ c (Proc.devRef .tc main_v2)) := by
  refine ((W2_arr m ρ c 4).trans (Region0.x2_eq (V1 m ρ) c)).trans ?_
  show xb (W1 (F := Ideal) m ρ c (Proc.devRef .tc main_arg2)) _ = _
  rw [W1_arg2]

/-! ## The result array after the run -/

/-- The output array at the last boundary, entry by entry. -/
theorem result_apply (c : Dev nD) (r : Fin 4096) (o : Fin 512) :
    (W3 (F := Ideal) m ρ c (Proc.devRef .tc main_v5) : ND.Idx → EReal) (ix2 r o)
      = out (m ((c : Thread nD τ).loc main_arg0)) (m ((c : Thread nD τ).loc main_arg1))
          (xa (m ((c : Thread nD τ).loc main_arg2)) (W1 (F := Ideal) m ρ c (Proc.devRef .tc main_v2)) (W1 (F := Ideal) m ρ c (Proc.devRef .tc main_v3)))
          (xb (m ((c : Thread nD τ).loc main_arg2)) (W1 (F := Ideal) m ρ c (Proc.devRef .tc main_v2)))
          (W1 (F := Ideal) m ρ c (Proc.devRef .tc main_v1)) r o := by
  refine (congrFun (W3_arr m ρ c 5) (ix2 r o)).trans ?_
  refine (Region1.out_apply (V2 m ρ) c r o).trans ?_
  rw [V2_arg0, V2_arg1, V2_x1, V2_x2, V2_v1]

end Cert.Gcn.Chain

end
-- ==== Proof.RefValue.lean ====
/-
  The reference program's result, entry by entry: the layer with the neighbours contracted first.
-/
import proofs.«142315_g52785148068368_cont_9to1_m_57_5_alg».proof.Proof.Gen.ReferenceIdeal.Run
import proofs.«142315_g52785148068368_cont_9to1_m_57_5_alg».proof.Proof.Spec
import proofs.«142315_g52785148068368_cont_9to1_m_57_5_alg».proof.Proof.LibRowOps

noncomputable section

open scoped BigOperators
open Idealize.ShloMosaic Idealize.ShloMosaic.ValueIdx
open Cert.ReferenceIdeal Cert.ReferenceIdeal.Gen Cert.Gcn

namespace Cert.Gcn.RefValue

/-- One dense half of the host program at `(r, o)`, the inner product over the neighbours still folded:
    `(Σ_d Y(r, d) · W(o, d)) + b(o)`, the transposed weight read back at `(o, d)`. -/
private theorem half_apply (Y : FVec Ideal S4096x512 .f32) (W : FVec Ideal S512x512 .f32) (b : FVec Ideal S512 .f32)
    (r : Fin 4096) (o : Fin 512) :
    (addf (Host.dotGeneral dot_S4096x512_S512x512_S4096x512_1_0_0_1_n_n none Y
        (transpose S512x512 [1, 0] W transposes_S512x512_S512x512_1_0))
      (broadcastInDim S4096x512 ![0, 1] bcast_S1x512_S4096x512_0_1 (broadcastInDim S1x512 ![1] bcast_S512_S1x512_1 b))
      : FVec Ideal S4096x512 .f32) (ix2 r o)
      = (∑ d : Fin 512, Y (ix2 r d) * W (ix2 o d)) + b (ix1 o) := by
  refine (RowOps.dense_host_apply' dot_S4096x512_S512x512_S4096x512_1_0_0_1_n_n rfl Y
    (transpose S512x512 [1, 0] W transposes_S512x512_S512x512_1_0) b bcast_S512_S1x512_1 bcast_S1x512_S4096x512_0_1 r o).trans ?_
  unfold RowOps.dense
  refine congrArg (fun t => t + b (ix1 o)) ?_
  refine Finset.sum_congr rfl fun d _ => ?_
  exact congrArg (fun t => Y (ix2 r d) * t) (transpose_ix2_apply W transposes_S512x512_S512x512_1_0 d o)

/-- The neighbours' product at `(r, d)`: `Σ_j A(r, j) · Z(j, d)`. -/
private theorem nbr_apply (A : FVec Ideal S4096x4096 .f32) (Z : FVec Ideal S4096x512 .f32) (r : Fin 4096) (d : Fin 512) :
    (Host.dotGeneral dot_S4096x4096_S4096x512_S4096x512_1_0_0_1_n_n none A Z : FVec Ideal S4096x512 .f32) (ix2 r d)
      = ∑ j : Fin 4096, A (ix2 r j) * Z (ix2 j d) :=
  RowOps.dotGeneral_plain_apply dot_S4096x4096_S4096x512_S4096x512_1_0_0_1_n_n rfl none A Z r d

/-- The host program's composed term at `(r, o)`: both matrix products are plain sums, the transposed weights read
    `W[o, d]`, and each bias, broadcast in two steps, reads `b[o]`. -/
theorem ref_apply (a0 a1 : FVec Ideal S4096x4096 .f32) (a2 : FVec Ideal S4096x512 .f32) (a3 : FVec Ideal S512x512 .f32)
    (a4 : FVec Ideal S512 .f32) (a5 : FVec Ideal S512x512 .f32) (a6 : FVec Ideal S512 .f32) (r : Fin 4096) (o : Fin 512) :
    (addf (addf (Host.dotGeneral dot_S4096x512_S512x512_S4096x512_1_0_0_1_n_n none (Host.dotGeneral dot_S4096x4096_S4096x512_S4096x512_1_0_0_1_n_n none (addf a0 a1) a2) (transpose S512x512 [1, 0] a3 transposes_S512x512_S512x512_1_0)) (broadcastInDim S4096x512 ![0, 1] bcast_S1x512_S4096x512_0_1 (broadcastInDim S1x512 ![1] bcast_S512_S1x512_1 a4))) (addf (Host.dotGeneral dot_S4096x512_S512x512_S4096x512_1_0_0_1_n_n none (Host.dotGeneral dot_S4096x4096_S4096x512_S4096x512_1_0_0_1_n_n none a0 (mulf a2 a2)) (transpose S512x512 [1, 0] a5 transposes_S512x512_S512x512_1_0)) (broadcastInDim S4096x512 ![0, 1] bcast_S1x512_S4096x512_0_1 (broadcastInDim S1x512 ![1] bcast_S512_S1x512_1 a6))) : FVec Ideal S4096x512 .f32) (ix2 r o)
      = ref a0 a1 a2 a3 a4 a5 a6 r o := by
  -- the outer sum of the two halves, entry by entry
  refine (addf_apply _ _ (ix2 r o)).trans ?_
  rw [half_apply, half_apply]
  unfold ref
  -- each half: the neighbours' product inside the sum over d, with the pointwise sum and square read entry by entry
  refine congrArg₂ (fun s t => (s + a4 (ix1 o)) + (t + a6 (ix1 o))) ?_ ?_
  · refine Finset.sum_congr rfl fun d _ => ?_
    rw [nbr_apply]
    rfl
  · refine Finset.sum_congr rfl fun d _ => ?_
    rw [nbr_apply]
    rfl

end Cert.Gcn.RefValue

end
-- ==== Proof.Finite.lean ====
/-
  Under the precondition every entry of every input is a real number.
  The precondition compares each entry's absolute value with +∞ and takes the conjunction over all entries of all seven
  inputs; an extended real whose absolute value is below +∞ is neither +∞ nor −∞.
-/
import proofs.«142315_g52785148068368_cont_9to1_m_57_5_alg».proof.Defs
import proofs.«142315_g52785148068368_cont_9to1_m_57_5_alg».proof.Proof.Gen.Pre_finite_inputs
import Idealize.ShloMosaic.Lib.ReduceAll
import Idealize.ShloMosaic.Lib.ValueIdx

noncomputable section

open Idealize.ShloMosaic Idealize.ShloMosaic.ValueIdx
open Cert.Pre_finite_inputs Cert.Pre_finite_inputs.Gen

namespace Cert.Gcn.Finite

/-- The shape with no axes has one index. -/
private instance : Subsingleton S_.Idx := ⟨fun a b => funext fun d => d.elim0⟩

/-- The word 0x7F800000 denotes +∞. -/
private theorem top_bits : Ideal.ofBits .f32 0x7F800000#32 = (⊤ : EReal) := by
  simp [Ideal.ofBits, Ideal.ieee]

/-- An extended real whose absolute value max x (−x) lies strictly below +∞ is a real:
    at +∞ and at −∞ the maximum is +∞ itself. -/
private theorem real_of_abs_lt_top (x : EReal) (h : max x (-x) < ⊤) : ∃ r : ℝ, x = (r : EReal) := by
  induction x using EReal.rec with
  | bot => simp at h
  | coe r => exact ⟨r, rfl⟩
  | top => simp at h

/-- If the conjunction over all entries of "|a i| < +∞" is 1, every entry of a is a real. -/
private theorem real_of_all_lt {s : Shape} (a : FVec Ideal s .f32)
    (hb : S_.BroadcastsInDim s (![] : Fin 0 → Fin s.rank)) {axes : List (Fin s.rank)}
    (hr : s.ReducesTo axes S_) (hu : 0 < S_.numel)
    (h : Host.reduce IntOp.andi (cmpf .olt (Host.absf a) (broadcastInDim s ![] hb (constant S_ .f32 0x7F800000#32)))
      (constantI S_ 1 1#1) hr hu ix0 = 1#1) : ∀ i, ∃ x : ℝ, a i = (x : EReal) := by
  intro i
  -- a conjunction over all entries that is 1 is 1 at the entry i
  have e := Host.reduce_andi_all _ _ hr hu ix0 h i
  -- that entry compares max (a i) (−a i) with the value of the word 0x7F800000, which is +∞
  dsimp only [cmpf, Host.absf, broadcastInDim, constant] at e
  change Ideal.cmp .olt (max (a i) (-(a i))) (Ideal.ofBits .f32 0x7F800000#32) = 1#1 at e
  rw [top_bits] at e
  have hlt : max (a i) (-(a i)) < (⊤ : EReal) := by
    by_contra hn
    simp [Ideal.cmp, hn] at e
  exact real_of_abs_lt_top (a i) hlt

/-- The precondition's seven conjuncts, each read as "every entry is a real". -/
theorem real_of_pre (a0 a1 : FVec Ideal S4096x4096 .f32) (a2 : FVec Ideal S4096x512 .f32) (a3 : FVec Ideal S512x512 .f32)
    (a4 : FVec Ideal S512 .f32) (a5 : FVec Ideal S512x512 .f32) (a6 : FVec Ideal S512 .f32)
    (h : Cert.Pre_finite_inputs.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) := by
  -- the one entry of the result, as a nested conjunction of the seven all-entries conjunctions
  have h0 := congrFun h ValueIdx.ix0
  dsimp only [Cert.Pre_finite_inputs.fn, Cert.Pre_finite_inputs.fn_part1, Idealize.ShloMosaic.andi] at h0
  -- a conjunction of one-bit words is 1 exactly when both words are 1
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_lt a0 _ _ _ e0, real_of_all_lt a1 _ _ _ e1, real_of_all_lt a2 _ _ _ e2, real_of_all_lt a3 _ _ _ e3,
    real_of_all_lt a4 _ _ _ e4, real_of_all_lt a5 _ _ _ e5, real_of_all_lt a6 _ _ _ e6⟩

end Cert.Gcn.Finite

end
-- ==== Proof.Algebra.lean ====
/-
  The two arrangements of the layer agree when every entry is a real number.
-/
import proofs.«142315_g52785148068368_cont_9to1_m_57_5_alg».proof.Proof.Spec

noncomputable section

open scoped BigOperators

namespace Cert.Gcn

open Idealize.ShloMosaic Idealize.ShloMosaic.ValueIdx

/-- A finite sum of coerced reals is the coercion of the real sum. -/
private theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A sum over the 4096 positions is the sum over the first half plus the sum over the second half. -/
private theorem sum_halves (f : Fin 4096 → ℝ) :
    ∑ j, f j = (∑ j : Fin 2048, f (half 0 j)) + ∑ j : Fin 2048, f (half 1 j) := by
  have e0 : ∀ j : Fin 2048, half 0 j = Fin.castAdd 2048 j := fun j => Fin.ext (by simp [half])
  have e1 : ∀ j : Fin 2048, half 1 j = Fin.natAdd 2048 j := fun j => Fin.ext (by simp [half]; omega)
  simp only [e0, e1]
  exact Fin.sum_univ_add (a := 2048) (b := 2048) f

/-- The identity over the reals: each product is distributed over the inner sum over the 512 features,
    the sums over positions and features are exchanged, and the two halves are put back together. -/
private theorem real_law (l p : Fin 4096 → ℝ) (x : Fin 4096 → Fin 512 → ℝ) (w1 w2 : Fin 512 → ℝ) (c1 c2 : ℝ) :
    ((c1 + c2) + ((∑ j : Fin 2048, l (half 0 j) * ((∑ d, x (half 0 j) d * w1 d) + ∑ d, (x (half 0 j) d * x (half 0 j) d) * w2 d))
        + ∑ j : Fin 2048, p (half 0 j) * ∑ d, x (half 0 j) d * w1 d))
      + ((∑ j : Fin 2048, l (half 1 j) * ((∑ d, x (half 1 j) d * w1 d) + ∑ d, (x (half 1 j) d * x (half 1 j) d) * w2 d))
        + ∑ j : Fin 2048, p (half 1 j) * ∑ d, x (half 1 j) d * w1 d)
    = ((∑ d, (∑ j, (l j + p j) * x j d) * w1 d) + c1) + ((∑ d, (∑ j, l j * (x j d * x j d)) * w2 d) + c2) := by
  have hg := sum_halves (fun j => l j * ((∑ d, x j d * w1 d) + ∑ d, (x j d * x j d) * w2 d))
  have hh := sum_halves (fun j => p j * ∑ d, x j d * w1 d)
  have h1 : (∑ d, (∑ j, (l j + p j) * x j d) * w1 d) = ∑ j, (l j + p j) * ∑ d, x j d * w1 d := by
    simp only [Finset.sum_mul, Finset.mul_sum]
    rw [Finset.sum_comm]
    refine Finset.sum_congr rfl fun j _ => Finset.sum_congr rfl fun d _ => ?_
    ring
  have h2 : (∑ d, (∑ j, l j * (x j d * x j d)) * w2 d) = ∑ j, l j * ∑ d, (x j d * x j d) * w2 d := by
    simp only [Finset.sum_mul, Finset.mul_sum]
    rw [Finset.sum_comm]
    refine Finset.sum_congr rfl fun j _ => Finset.sum_congr rfl fun d _ => ?_
    ring
  have h3 : (∑ j, (l j + p j) * ∑ d, x j d * w1 d) + (∑ j, l j * ∑ d, (x j d * x j d) * w2 d)
      = (∑ j, l j * ((∑ d, x j d * w1 d) + ∑ d, (x j d * x j d) * w2 d)) + ∑ j, p j * ∑ d, x j d * w1 d := by
    rw [← Finset.sum_add_distrib, ← Finset.sum_add_distrib]
    refine Finset.sum_congr rfl fun j _ => ?_
    ring
  rw [h1, h2]
  linarith [hg, hh, h3]

/-- On real entries the layer projected first and contracted in two halves is the layer contracted first:
    products distribute over the finite sums and the sums may be exchanged. -/
theorem law (lap loop : NN.Idx → EReal) (X : ND.Idx → EReal) (W1 W2 W1t W2t : DD.Idx → EReal) (b1 b2 : D1.Idx → EReal)
    (bias : R1D.Idx → EReal)
    (hlap : ∀ i, ∃ x : ℝ, lap i = (x : EReal)) (hloop : ∀ i, ∃ x : ℝ, loop i = (x : EReal))
    (hX : ∀ i, ∃ x : ℝ, X i = (x : EReal)) (hW1 : ∀ i, ∃ x : ℝ, W1 i = (x : EReal)) (hW2 : ∀ i, ∃ x : ℝ, W2 i = (x : EReal))
    (hb1 : ∀ i, ∃ x : ℝ, b1 i = (x : EReal)) (hb2 : ∀ i, ∃ x : ℝ, b2 i = (x : EReal))
    (hW1t : ∀ d o : Fin 512, W1t (ix2 d o) = W1 (ix2 o d)) (hW2t : ∀ d o : Fin 512, W2t (ix2 d o) = W2 (ix2 o d))
    (hbias : ∀ o : Fin 512, bias (ix2 (0 : Fin 1) o) = b1 (ix1 o) + b2 (ix1 o)) (r : Fin 4096) (o : Fin 512) :
    out lap loop (xa X W1t W2t) (xb X W1t) bias r o = ref lap loop X W1 b1 W2 b2 r o := by
  choose lapR hlapR using hlap
  choose loopR hloopR using hloop
  choose XR hXR using hX
  choose W1R hW1R using hW1
  choose W2R hW2R using hW2
  choose b1R hb1R using hb1
  choose b2R hb2R using hb2
  simp only [out, part, xa, xb, mk2_apply, lin, linSq, ref, hbias, hW1t, hW2t, hlapR, hloopR, hXR, hW1R, hW2R, hb1R, hb2R]
  simp only [← EReal.coe_mul, ← EReal.coe_add, coe_sum]
  exact congrArg _ (real_law (fun j => lapR (ix2 r j)) (fun j => loopR (ix2 r j)) (fun j d => XR (ix2 j d))
    (fun d => W1R (ix2 o d)) (fun d => W2R (ix2 o d)) (b1R (ix1 o)) (b2R (ix1 o)))

end Cert.Gcn

end
-- ==== Proof.lean ====
/-
  A graph-convolution layer computed two ways, and that the two agree.

  The reference contracts the 4096 neighbours first: `((lap + loop)·X)·W1ᵀ + b1 + (lap·X²)·W2ᵀ + b2`.  The kernel projects the
  features first — `G1 = X·W1ᵀ`, `G2 = X²·W2ᵀ` in one launch, which leaves `G1 + G2` and `G1` — and then, in a second launch
  over 8 row blocks × 2 halves of the neighbours, starts each 512-row block from the summed bias row and adds
  `lap_block·(G1 + G2)_half + loop_block·G1_half` at each half.  Read at the extended reals, where a change of float format
  is the identity and each matrix product is a plain finite sum, the two results are equal entry by entry whenever every
  input entry is a real number: products distribute over the finite sums and the sums over neighbours and features may be
  exchanged (`Cert.Gcn.law`).  Distributivity fails at ±∞, so the precondition (every input finite) is used
  (`Cert.Gcn.Finite.real_of_pre`).

  The kernel's result is read off its run boundary by boundary (`Cert.Gcn.Chain.result_apply`: the host stretch that sums
  the biases and transposes the weights, the projecting launch `Cert.Gcn.Region0`, the contracting launch
  `Cert.Gcn.Region1`), the reference's off its composed term (`Cert.Gcn.RefValue.ref_apply`).  The idealized kernel is the
  kernel's own text read at the extended reals (no rewrite was applied), so `preserves` has nothing to state.
-/
import proofs.«142315_g52785148068368_cont_9to1_m_57_5_alg».proof.Defs
import proofs.«142315_g52785148068368_cont_9to1_m_57_5_alg».proof.Proof.Gen.Kernel
import proofs.«142315_g52785148068368_cont_9to1_m_57_5_alg».proof.Proof.Gen.Kernel.Skeleton
import proofs.«142315_g52785148068368_cont_9to1_m_57_5_alg».proof.Proof.Gen.Kernel.Launch
import proofs.«142315_g52785148068368_cont_9to1_m_57_5_alg».proof.Proof.Gen.Kernel.Points
import proofs.«142315_g52785148068368_cont_9to1_m_57_5_alg».proof.Proof.Gen.Kernel.Frame
import proofs.«142315_g52785148068368_cont_9to1_m_57_5_alg».proof.Proof.Gen.KernelIdeal
import proofs.«142315_g52785148068368_cont_9to1_m_57_5_alg».proof.Proof.Gen.KernelIdeal.Skeleton
import proofs.«142315_g52785148068368_cont_9to1_m_57_5_alg».proof.Proof.Gen.KernelIdeal.Launch
import proofs.«142315_g52785148068368_cont_9to1_m_57_5_alg».proof.Proof.Gen.KernelIdeal.Points
import proofs.«142315_g52785148068368_cont_9to1_m_57_5_alg».proof.Proof.Gen.KernelIdeal.Frame
import proofs.«142315_g52785148068368_cont_9to1_m_57_5_alg».proof.Proof.Gen.ReferenceIdeal
import proofs.«142315_g52785148068368_cont_9to1_m_57_5_alg».proof.Proof.Gen.ReferenceIdeal.Run
import proofs.«142315_g52785148068368_cont_9to1_m_57_5_alg».proof.Proof.Gen.Pre_finite_inputs
import proofs.«142315_g52785148068368_cont_9to1_m_57_5_alg».proof.Proof.KernelRun
import proofs.«142315_g52785148068368_cont_9to1_m_57_5_alg».proof.Proof.Chain
import proofs.«142315_g52785148068368_cont_9to1_m_57_5_alg».proof.Proof.RefValue
import proofs.«142315_g52785148068368_cont_9to1_m_57_5_alg».proof.Proof.Finite
import proofs.«142315_g52785148068368_cont_9to1_m_57_5_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs to the end with its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in reading the kernel at the extended reals. -/
theorem preserves : Cert.preserves_Kernel_KernelIdeal := trivial

/-- From memories that agree on the seven inputs, all finite, the kernel's output array and the reference's are equal
    entry by entry: at `(r, o)` the first is `out` of the inputs' projections, the second `ref` of the inputs, and the two
    agree on real entries. -/
theorem algebraic : Cert.algebraic_KernelIdeal_ReferenceIdeal := by
  intro m ρ m' ρ' hpre hagree
  refine ⟨fun c => Cert.KernelIdeal.Gen.W3 (F := Ideal) m ρ c (Proc.devRef .tc Cert.KernelIdeal.main_v5),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  obtain ⟨f0, f1, f2, f3, f4, f5, f6⟩ := Cert.Gcn.Finite.real_of_pre _ _ _ _ _ _ _ (hpre c)
  funext i
  obtain ⟨r, o, rfl⟩ : ∃ (r : Fin 4096) (o : Fin 512), i = ix2 r o := ⟨i 0, i 1, eq_ix2 i⟩
  refine (Cert.Gcn.RefValue.ref_apply _ _ _ _ _ _ _ r o).trans ?_
  refine Eq.trans ?_ (Cert.Gcn.Chain.result_apply m ρ c r o).symm
  exact (Cert.Gcn.law _ _ _ _ _ _ _ _ _ _ f0 f1 f2 f3 f5 f4 f6 (Cert.Gcn.Chain.W1_v2_apply m ρ c)
    (Cert.Gcn.Chain.W1_v3_apply m ρ c) (Cert.Gcn.Chain.W1_v1_apply m ρ c) r o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
